-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x64 : Shape := ⟨2, ![256, 64]⟩
abbrev S2x1600000 : Shape := ⟨2, ![2, 1600000]⟩
abbrev S1600000 : Shape := ⟨1, ![1600000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S1600000 : S_.BroadcastsInDim S1600000 (![] : Fin 0 → Fin S1600000.rank)
  reducesTo_S1600000_S_d0 : S1600000.ReducesTo [0] S_

variable [Facts]

def fn {F : FTy → Type} [FloatOps F] (main_arg0 : FVec F S100000x256 .f32) (main_arg1 : FVec F S256x64 .f32) (main_arg2 : IVec S2x1600000 32) (main_arg3 : FVec F S1600000 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S1600000 .f32 := Host.absf main_arg3
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  main_v13
-- ==== Kernel.lean ====
abbrev S100000x256 : Shape := ⟨2, ![100000, 256]⟩
abbrev S256x64 : Shape := ⟨2, ![256, 64]⟩
abbrev S2x1600000 : Shape := ⟨2, ![2, 1600000]⟩
abbrev S1600000 : Shape := ⟨1, ![1600000]⟩
abbrev S100000x64 : Shape := ⟨2, ![100000, 64]⟩
abbrev S2000x256 : Shape := ⟨2, ![2000, 256]⟩
abbrev S2000x64 : Shape := ⟨2, ![2000, 64]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S5000x64 : Shape := ⟨2, ![5000, 64]⟩

abbrev nBuf : Space → Nat
  | .hbm => 26
  | .vmem => 9
  | .smem => 0
  | _ => 0

abbrev bufTy : (tb : Table) → Fin (tcTables nBuf tb) → BufTy
  | .hbm, ⟨0, _⟩ => ⟨S100000x256, .f32⟩
  | .hbm, ⟨1, _⟩ => ⟨S256x64, .f32⟩
  | .hbm, ⟨2, _⟩ => ⟨S2x1600000, .i32⟩
  | .hbm, ⟨3, _⟩ => ⟨S1600000, .f32⟩
  | .hbm, ⟨4, _⟩ => ⟨S100000x64, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S1600000x1, .f32⟩
  | .hbm, ⟨19, _⟩ => ⟨S1600000x64, .f32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S100000x64, .f32⟩
  | .local _ .vmem, ⟨0, _⟩ => ⟨S2000x256, .f32⟩
  | .local _ .vmem, ⟨1, _⟩ => ⟨S2000x256, .f32⟩
  | .local _ .vmem, ⟨2, _⟩ => ⟨S256x64, .f32⟩
  | .local _ .vmem, ⟨3, _⟩ => ⟨S2000x64, .f32⟩
  | .local _ .vmem, ⟨4, _⟩ => ⟨S2000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S2000x64_S2000x64_0_0 : ∀ a, (![0, 0] : Fin 2 → Nat) a + S2000x64.size a ≤ S2000x64.size a
  h_S2000x64 : 0 < S2000x64.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  dot_S2000x256_S256x64_S2000x64_1_0_0_1_n_n_wf : DotDims.WF S2000x256 S256x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)

variable [Facts₀]

def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S100000x256 : Shape := ⟨2, ![100000, 256]⟩
abbrev S256x64 : Shape := ⟨2, ![256, 64]⟩
abbrev S2x1600000 : Shape := ⟨2, ![2, 1600000]⟩
abbrev S1600000 : Shape := ⟨1, ![1600000]⟩
abbrev S100000x64 : Shape := ⟨2, ![100000, 64]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩

abbrev nBuf : Space → Nat
  | .hbm => 28
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x64, .f32⟩
  | .hbm, ⟨2, _⟩ => ⟨S2x1600000, .i32⟩
  | .hbm, ⟨3, _⟩ => ⟨S1600000, .f32⟩
  | .hbm, ⟨4, _⟩ => ⟨S100000x64, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S1600000x1, .f32⟩
  | .hbm, ⟨19, _⟩ => ⟨S1600000x64, .f32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S100000x64, .f32⟩
  | .hbm, ⟨27, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_cst : Ref sig .tc := ⟨.hbm, 25, rfl⟩
abbrev main_call0_v0 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  dot_S100000x256_S256x64_S100000x64_1_0_0_1_n_n_wf : DotDims.WF S100000x256 S256x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.BlockValue.lean ====
/- One grid point of the projection kernel, read at an entry. The body casts its two loaded blocks to bf16 (the
   identity on extended reals), multiplies them into a zero accumulator and stores the product; so entry (p, q) of
   what it stores is the sum over the 256 contraction indices k of (block of x)[p, k] · w[k, q]. -/
import proofs.«141219_j6846177870229_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.BlockValue

open Cert.KernelIdeal Cert.KernelIdeal.Gen Idealize.ShloMosaic

/-- The left operand's row coordinate is the output's row. -/
theorem lhs_row (i : S2000x64.Idx) (q : dot_S2000x256_S256x64_S2000x64_1_0_0_1_n_n.contr.Idx) :
    (dot_S2000x256_S256x64_S2000x64_1_0_0_1_n_n.lhsIdx i q 0).val = (i 0).val := by
  unfold DotDims.lhsIdx
  rw [dif_neg (show ¬(0 : Fin S2000x256.rank) ∈ dot_S2000x256_S256x64_S2000x64_1_0_0_1_n_n.lhsBatch by decide), dif_pos (show (0 : Fin S2000x256.rank) ∈ dot_S2000x256_S256x64_S2000x64_1_0_0_1_n_n.lhsNonContracting by decide)]
  rfl
/-- Its column coordinate is the contraction index. -/
theorem lhs_col (i : S2000x64.Idx) (q : dot_S2000x256_S256x64_S2000x64_1_0_0_1_n_n.contr.Idx) :
    (dot_S2000x256_S256x64_S2000x64_1_0_0_1_n_n.lhsIdx i q 1).val = (q ⟨0, by decide⟩).val :=
  dot_S2000x256_S256x64_S2000x64_1_0_0_1_n_n.lhsIdx_val_of_single rfl i q
/-- The right operand's row coordinate is the contraction index. -/
theorem rhs_row (i : S2000x64.Idx) (q : dot_S2000x256_S256x64_S2000x64_1_0_0_1_n_n.contr.Idx) :
    (dot_S2000x256_S256x64_S2000x64_1_0_0_1_n_n.rhsIdx i q 0).val = (q ⟨0, by decide⟩).val :=
  dot_S2000x256_S256x64_S2000x64_1_0_0_1_n_n.rhsIdx_val_of_single rfl i q
/-- Its column coordinate is the output's column. -/
theorem rhs_col (i : S2000x64.Idx) (q : dot_S2000x256_S256x64_S2000x64_1_0_0_1_n_n.contr.Idx) :
    (dot_S2000x256_S256x64_S2000x64_1_0_0_1_n_n.rhsIdx i q 1).val = (i 1).val := by
  unfold DotDims.rhsIdx
  rw [dif_neg (show ¬(1 : Fin S256x64.rank) ∈ dot_S2000x256_S256x64_S2000x64_1_0_0_1_n_n.rhsBatch by decide), dif_pos (show (1 : Fin S256x64.rank) ∈ dot_S2000x256_S256x64_S2000x64_1_0_0_1_n_n.rhsNonContracting by decide)]
  rfl

/-- Entry (p, k) of the block of x that output entry `i` = (p, q) meets at contraction index `k`. -/
abbrev xBlkAt (i : S2000x64.Idx) (k : Fin 256) : S2000x256.Idx := fun a => match a with
  | ⟨0, _⟩ => ⟨(i 0).val, (i 0).isLt⟩
  | ⟨1, _⟩ => ⟨k.val, k.isLt⟩
/-- Entry (k, q) of w. -/
abbrev wBlkAt (i : S2000x64.Idx) (k : Fin 256) : S256x64.Idx := fun a => match a with
  | ⟨0, _⟩ => ⟨k.val, k.isLt⟩
  | ⟨1, _⟩ => ⟨(i 1).val, (i 1).isLt⟩

/-- What one grid point stores, at entry `i`: the sum over k of the two loaded blocks' products. The casts to bf16
    vanish on extended reals and the accumulator is the zero splat. -/
theorem stored_apply (x0 : Vec Ideal S2000x256 .f32) (x1 : Vec Ideal S256x64 .f32) (i : S2000x64.Idx) :
    k0_pay1 (F := Ideal) x0 x1 i = ∑ k : Fin 256, x0 (xBlkAt i k) * x1 (wBlkAt i k) := by
  unfold k0_pay1
  simp only [matmul]
  rw [Ideal.matmul_constant_zero_apply, ← Equiv.sum_comp (ValueIdx.contrEquiv1 dot_S2000x256_S256x64_S2000x64_1_0_0_1_n_n 256 rfl rfl).symm]
  refine Finset.sum_congr rfl fun k _ => ?_
  have hk := ValueIdx.contrEquiv1_symm_val dot_S2000x256_S256x64_S2000x64_1_0_0_1_n_n 256 rfl rfl k
  have el : dot_S2000x256_S256x64_S2000x64_1_0_0_1_n_n.lhsIdx i ((ValueIdx.contrEquiv1 dot_S2000x256_S256x64_S2000x64_1_0_0_1_n_n 256 rfl rfl).symm k) = xBlkAt i k := funext fun a => Fin.ext (by
    match a with
    | ⟨0, _⟩ => exact lhs_row _ _
    | ⟨1, _⟩ => exact (lhs_col _ _).trans hk)
  have er : dot_S2000x256_S256x64_S2000x64_1_0_0_1_n_n.rhsIdx i ((ValueIdx.contrEquiv1 dot_S2000x256_S256x64_S2000x64_1_0_0_1_n_n 256 rfl rfl).symm k) = wBlkAt i k := funext fun a => Fin.ext (by
    match a with
    | ⟨0, _⟩ => exact (rhs_row _ _).trans hk
    | ⟨1, _⟩ => exact rhs_col _ _)
  show x0 (dot_S2000x256_S256x64_S2000x64_1_0_0_1_n_n.lhsIdx i ((ValueIdx.contrEquiv1 dot_S2000x256_S256x64_S2000x64_1_0_0_1_n_n 256 rfl rfl).symm k)) * x1 (dot_S2000x256_S256x64_S2000x64_1_0_0_1_n_n.rhsIdx i ((ValueIdx.contrEquiv1 dot_S2000x256_S256x64_S2000x64_1_0_0_1_n_n 256 rfl rfl).symm k)) = _
  rw [el, er]

/-- What one grid point of the activation kernel stores, at entry `j`: the maximum of the loaded entry and the float
    zero (the shape cast is of a shape to itself). -/
theorem relu_stored_apply (x : Vec Ideal S5000x64 .f32) (j : S5000x64.Idx) :
    k1_pay1 (F := Ideal) x j = max (x j) (Ideal.ofBits .f32 0x00000000#32) := by
  unfold k1_pay1
  simp only [shapeCast_self]
  rfl

end Cert.KernelIdeal.BlockValue

end
-- ==== Proof.Spec.lean ====
/- The mathematics both programs compute, stated once over index functions into the extended reals.
   `proj x w` is the dense projection: entry (r, j) is the sum over the 256 features k of x[r, k] · w[k, j].
   `relu a` is the entrywise maximum with the float zero. Between the two both programs apply the same
   edge aggregation (gather the source rows, scale by the edge weights, add into the destination rows), which
   the certificate carries as one function and never opens. -/
import Idealize.ShloMosaic.PureOps.Ideal
import Idealize.ShloMosaic.Lib.ValueIdx

noncomputable section

namespace Cert.Spec

open Idealize.ShloMosaic

/-- Node features [100000, 256], weights [256, 64], projected features [100000, 64]. -/
abbrev SX : Shape := ⟨2, ![100000, 256]⟩
abbrev SW : Shape := ⟨2, ![256, 64]⟩
abbrev SH : Shape := ⟨2, ![100000, 64]⟩

/-- The feature-matrix entry that output entry `i` = (r, j) meets at contraction index `k`: (r, k). -/
abbrev xAt (i : SH.Idx) (k : Fin 256) : SX.Idx := fun a => match a with
  | ⟨0, _⟩ => ⟨(i 0).val, (i 0).isLt⟩
  | ⟨1, _⟩ => ⟨k.val, k.isLt⟩
/-- The weight entry it meets there: (k, j). -/
abbrev wAt (i : SH.Idx) (k : Fin 256) : SW.Idx := fun a => match a with
  | ⟨0, _⟩ => ⟨k.val, k.isLt⟩
  | ⟨1, _⟩ => ⟨(i 1).val, (i 1).isLt⟩

/-- The dense projection x · w, entry by entry, as a sum over the contraction index. -/
def proj (x : SX.Idx → EReal) (w : SW.Idx → EReal) : SH.Idx → EReal :=
  fun i => ∑ k : Fin 256, x (xAt i k) * w (wAt i k)

/-- The entrywise maximum with the float zero (the word is kept as a word: both programs spell the same one). -/
def relu (a : SH.Idx → EReal) : SH.Idx → EReal :=
  fun i => max (a i) (Ideal.ofBits .f32 0x00000000#32)

end Cert.Spec

end
-- ==== Proof.Region0.lean ====
/- The projection region, from its blocks to its array. Grid point t reads rows 2000·t … 2000·t + 1999 of x and
   all of w, and writes back the same rows of the output; its stored block is the matrix product of what it read.
   So what point t writes back is block t of the dense projection of the arrays the region was entered with, the
   fifty blocks tile the [100000, 64] output, and the output array ends holding the projection whole. -/
import proofs.«141219_j6846177870229_1_alg».proof.Proof.Gen.KernelIdeal.Frame
import proofs.«141219_j6846177870229_1_alg».proof.Proof.BlockValue
import proofs.«141219_j6846177870229_1_alg».proof.Proof.Spec
import Idealize.ShloMosaic.Lib.Pipeline.Value

set_option maxRecDepth 16384

noncomputable section

namespace Cert.KernelIdeal.Region0

open Cert.KernelIdeal Cert.KernelIdeal.Gen Cert.KernelIdeal.BlockValue
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The two argument arrays as the region finds them, at their literal types. -/
abbrev xArr (c : Dev nD) : Vec Ideal S100000x256 .f32 := V c main_arg0
abbrev wArr (c : Dev nD) : Vec Ideal S256x64 .f32 := V c main_arg1

/-- The printed index maps, decided over the fifty points: the x window moves with the output window along the rows
    and sits at column block 0; the w window never moves; the output's column block is 0 and its row block below 50. -/
theorem index_maps : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 49 :=
  (by decide +kernel : ∀ t : Fin grid0.N, _)

/-- Every row block is some point's. -/
theorem row_block_onto : ∀ q0 : Fin 50, ∃ t : Fin cfg0.N, win0_2.index t = ![q0.val, 0] :=
  (by decide +kernel : ∀ q0 : Fin 50, ∃ t : Fin grid0.N, win0_2.index t = ![q0.val, 0])

/-- What point `t` writes back is block `t` of the projection of the arrays as the region finds them. -/
theorem written_back (c : Dev nD) (t : Fin cfg0.N) :
    (dat0 V c).flushed 2 t = ((cfg0.win 2).blk t).view.read (Elt Ideal) (Cert.Spec.proj (V c main_arg0) (V c main_arg1)) := by
  show (cfg0.win 2).cut (grid0.coords t) ((dat0 V c).after 2 t) = _
  rw [after0_2]
  unfold out0_2
  rw [View.canon_unit_zero zero_offsets]
  simp only [View.ld_unit_zero (S := S2000x256) zero_offsets, View.ld_unit_zero (S := S256x64) zero_offsets]
  obtain ⟨e0, e1, e2, e3, e4, e5⟩ := index_maps t
  funext j
  show k0_pay1 (F := Ideal) (iblk0 V c 0 t) (iblk0 V c 1 t) j = Cert.Spec.proj (V c main_arg0) (V c main_arg1) (((cfg0.win 2).blk t).view.emb j)
  rw [stored_apply]
  unfold Cert.Spec.proj
  refine Finset.sum_congr rfl fun k _ => ?_
  show xArr V c (((cfg0.win 0).blk t).view.emb (xBlkAt j k)) * wArr V c (((cfg0.win 1).blk t).view.emb (wBlkAt j k))
    = xArr V c (Cert.Spec.xAt (((cfg0.win 2).blk t).view.emb j) k) * wArr V c (Cert.Spec.wAt (((cfg0.win 2).blk t).view.emb j) k)
  have h0 : ((cfg0.win 0).blk t).view.emb (xBlkAt j k) = Cert.Spec.xAt (((cfg0.win 2).blk t).view.emb j) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 256 + 1 * k.val = k.val; omega
  have h1 : ((cfg0.win 1).blk t).view.emb (wBlkAt j k) = Cert.Spec.wAt (((cfg0.win 2).blk t).view.emb j) k := by
    funext a; apply Fin.ext
    match a with
    | ⟨0, _⟩ => show win0_1.index t (0 : Fin 2) * 256 + 1 * k.val = k.val; omega
    | ⟨1, _⟩ => show win0_1.index t (1 : Fin 2) * 64 + 1 * (j 1).val = win0_2.index t (1 : Fin 2) * 64 + 1 * (j 1).val; omega
  rw [h0, h1]

/-- An entry of the output is in point `t`'s block iff each coordinate is in the block's range on its axis. -/
theorem mem_block (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v0).slice (win0_2.rect t)).set ↔ _
  rw [View.set_slice_whole, Rect.mem_set_unit]
  exact Iff.rfl

/-- Every entry of the output is in the block of the point whose row block is its row divided by 2000. -/
theorem blocks_cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := row_block_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- The output array after the region: the dense projection of the two argument arrays as the region found them. -/
theorem array_after (c : Dev nD) :
    (dat0 V c).arrAt 2 cfg0.N = Cert.Spec.proj (V c main_arg0) (V c main_arg1) :=
  (dat0 V c).arrAt_eq_of_cover 2 _ (fun t _ => written_back V c t) blocks_cover

end Cert.KernelIdeal.Region0

end
-- ==== Proof.Region1.lean ====
/- The activation region, from its blocks to its array. Grid point t reads rows 5000·t … 5000·t + 4999 of the
   aggregate and writes back the same rows of the result, each entry the maximum of what it read and zero. So what
   point t writes back is block t of the entrywise maximum with zero of the array the region was entered with, the
   twenty blocks tile the [100000, 64] result, and the result array ends holding that maximum whole. -/
import proofs.«141219_j6846177870229_1_alg».proof.Proof.Gen.KernelIdeal.Frame
import proofs.«141219_j6846177870229_1_alg».proof.Proof.BlockValue
import proofs.«141219_j6846177870229_1_alg».proof.Proof.Spec
import Idealize.ShloMosaic.Lib.Pipeline.Value

set_option maxRecDepth 16384

noncomputable section

namespace Cert.KernelIdeal.Region1

open Cert.KernelIdeal Cert.KernelIdeal.Gen Cert.KernelIdeal.BlockValue
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The aggregate array as the region finds it, at its literal type. -/
abbrev aggArr (c : Dev nD) : Vec Ideal S100000x64 .f32 := V c main_v17

/-- The printed index maps, decided over the twenty points: the input window moves with the output window, both at
    column block 0, the row block below 20. -/
theorem index_maps : ∀ t : Fin cfg1.N, win1_0.index t (0 : Fin 2) = win1_1.index t (0 : Fin 2)
    ∧ win1_0.index t (1 : Fin 2) = 0
    ∧ win1_1.index t (1 : Fin 2) = 0
    ∧ win1_1.index t (0 : Fin 2) ≤ 19 :=
  (by decide +kernel : ∀ t : Fin grid1.N, _)

/-- Every row block is some point's. -/
theorem row_block_onto : ∀ q0 : Fin 20, ∃ t : Fin cfg1.N, win1_1.index t = ![q0.val, 0] :=
  (by decide +kernel : ∀ q0 : Fin 20, ∃ t : Fin grid1.N, win1_1.index t = ![q0.val, 0])

/-- What point `t` writes back is block `t` of the maximum with zero of the aggregate as the region finds it. -/
theorem written_back (c : Dev nD) (t : Fin cfg1.N) :
    (dat1 V c).flushed 1 t = ((cfg1.win 1).blk t).view.read (Elt Ideal) (Cert.Spec.relu (V c main_v17)) := by
  show (cfg1.win 1).cut (grid1.coords t) ((dat1 V c).after 1 t) = _
  rw [after1_1]
  unfold out1_1
  rw [View.canon_unit_zero zero_offsets]
  simp only [View.ld_unit_zero (S := S5000x64) zero_offsets]
  obtain ⟨e0, e1, e2, e3⟩ := index_maps t
  funext j
  show k1_pay1 (F := Ideal) (iblk1 V c 0 t) j = Cert.Spec.relu (V c main_v17) (((cfg1.win 1).blk t).view.emb j)
  rw [relu_stored_apply]
  unfold Cert.Spec.relu
  show max (aggArr V c (((cfg1.win 0).blk t).view.emb j)) _ = max (aggArr V c (((cfg1.win 1).blk t).view.emb j)) _
  have h0 : ((cfg1.win 0).blk t).view.emb j = ((cfg1.win 1).blk t).view.emb j := by
    funext a; apply Fin.ext
    match a with
    | ⟨0, _⟩ => show win1_0.index t (0 : Fin 2) * 5000 + 1 * (j 0).val = win1_1.index t (0 : Fin 2) * 5000 + 1 * (j 0).val; omega
    | ⟨1, _⟩ => show win1_0.index t (1 : Fin 2) * 64 + 1 * (j 1).val = win1_1.index t (1 : Fin 2) * 64 + 1 * (j 1).val; omega
  rw [h0]

/-- An entry of the result is in point `t`'s block iff each coordinate is in the block's range on its axis. -/
theorem mem_block (t : Fin cfg1.N) (i : S100000x64.Idx) :
    i ∈ ((cfg1.win 1).blk t).view.set ↔ ∀ a : Fin 2, win1_1.index t a * S5000x64.size a ≤ (i a).val ∧ (i a).val < win1_1.index t a * S5000x64.size a + S5000x64.size a := by
  show i ∈ ((View.whole main_v18).slice (win1_1.rect t)).set ↔ _
  rw [View.set_slice_whole, Rect.mem_set_unit]
  exact Iff.rfl

/-- Every entry of the result is in the block of the point whose row block is its row divided by 5000. -/
theorem blocks_cover (i : S100000x64.Idx) :
    ∃ t : Fin cfg1.N, (cfg1.win 1).flush t = true ∧ i ∈ ((cfg1.win 1).blk t).view.set := by
  have hi0 : (i 0).val < 100000 := (i 0).isLt
  have hi1 : (i 1).val < 64 := (i 1).isLt
  obtain ⟨t, ht⟩ := row_block_onto ⟨(i 0).val / 5000, by omega⟩
  have q0 : win1_1.index t (0 : Fin 2) = (i 0).val / 5000 := congrFun ht 0
  have q1 : win1_1.index t (1 : Fin 2) = 0 := congrFun ht 1
  refine ⟨t, flush1_1 t, ?_⟩
  rw [mem_block]
  intro a
  match a with
  | ⟨0, _⟩ => show win1_1.index t (0 : Fin 2) * 5000 ≤ (i 0).val ∧ (i 0).val < win1_1.index t (0 : Fin 2) * 5000 + 5000; omega
  | ⟨1, _⟩ => show win1_1.index t (1 : Fin 2) * 64 ≤ (i 1).val ∧ (i 1).val < win1_1.index t (1 : Fin 2) * 64 + 64; omega

/-- The result array after the region: the entrywise maximum with zero of the aggregate as the region found it. -/
theorem array_after (c : Dev nD) :
    (dat1 V c).arrAt 1 cfg1.N = Cert.Spec.relu (V c main_v17) :=
  (dat1 V c).arrAt_eq_of_cover 1 _ (fun t _ => written_back V c t) blocks_cover

end Cert.KernelIdeal.Region1

end
-- ==== Proof.Aggregate.lean ====
/- The edge aggregation both programs apply between the projection and the activation, named once: from the projected
   features `h`, the edge list `e` (row 0 the sources, row 1 the destinations) and the edge weights `w` it gathers
   the source rows of `h` (a negative source index wrapped by the number of nodes first), scales row by row with the
   weights, and adds each scaled row into its destination row of a zero array. The certificate never opens it: the two
   programs apply the same operations, so equal `h` gives equal aggregates.
   Then: what the second region of the kernel's program is entered with, read back through the host operations that
   run between the two regions, is this aggregation of the first region's output array. -/
import proofs.«141219_j6846177870229_1_alg».proof.Proof.Gen.KernelIdeal.Frame
import Idealize.ShloMosaic.Lib.StableHlo.Run

set_option maxRecDepth 16384

noncomputable section

namespace Cert.KernelIdeal.Aggregate

open Cert.KernelIdeal Cert.KernelIdeal.Gen
open Idealize.ShloMosaic Idealize.ShloMosaic.TcCoe Idealize.SL.Sem Idealize.ShloMosaic.StableHlo

variable {F : FTy → Type} [FloatOps F]

/-- Gather the source rows, scale by the edge weights, add into the destination rows of a zero array. -/
def aggregate (h : (⟨S100000x64, .f32⟩ : BufTy).Contents (Elt F)) (e : (⟨S2x1600000, .i32⟩ : BufTy).Contents (Elt F))
    (w : (⟨S1600000, .f32⟩ : BufTy).Contents (Elt F)) : (⟨S100000x64, .f32⟩ : BufTy).Contents (Elt F) :=
  Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (shapeCast _ (extractStridedSlice S1x1600000 ![1, 0] e slices_S2x1600000_S1x1600000_1_0) shapeCasts_S1x1600000_S1600000)) (mulf (Host.gather gather_S100000x64_S1600000x1_S1600000x64_1_0_n_n_0_1_164 h (broadcastInDim S1600000x1 ![0] bcast_S1600000_S1600000x1_0 (select (cmpi .slt (shapeCast _ (extractStridedSlice S1x1600000 ![0, 0] e slices_S2x1600000_S1x1600000_0_0) shapeCasts_S1x1600000_S1600000) (broadcastInDim S1600000 ![] bcast_S_S1600000 (constantI S_ 32 0#32))) (addi (shapeCast _ (extractStridedSlice S1x1600000 ![0, 0] e slices_S2x1600000_S1x1600000_0_0) shapeCasts_S1x1600000_S1600000) (broadcastInDim S1600000 ![] bcast_S_S1600000 (constantI S_ 32 100000#32))) (shapeCast _ (extractStridedSlice S1x1600000 ![0, 0] e slices_S2x1600000_S1x1600000_0_0) shapeCasts_S1x1600000_S1600000)))) (broadcastInDim S1600000x64 ![0, 1] bcast_S1600000x1_S1600000x64_0_1 (broadcastInDim S1600000x1 ![0] bcast_S1600000_S1600000x1_0 w)))

variable (m : (ℓ : Loc nD τ sig) → Buf (Elt F) ℓ) (ρ : Dev nD → PrngReg)

/-- The aggregate array the second region is entered with is the aggregation of the first region's exit contents. -/
theorem entered_with (c : Dev nD) :
    V2 m ρ c main_v17 = aggregate (V1 m ρ c main_v0) (V1 m ρ c main_arg2) (V1 m ρ c main_arg3) := by
  show StableHlo.after hostOps1 (W1 m ρ c) (Proc.devRef .tc main_v17) = _
  unfold aggregate
  after_results <;> rfl

/-- The first region leaves the edge list and the edge weights as launched. -/
theorem edges_kept (c : Dev nD) : V1 m ρ c main_arg2 = m ((c.tc : Thread nD τ).loc main_arg2) :=
  W1_of_ne m ρ c main_arg2 (by decide)
theorem weights_kept (c : Dev nD) : V1 m ρ c main_arg3 = m ((c.tc : Thread nD τ).loc main_arg3) :=
  W1_of_ne m ρ c main_arg3 (by decide)
/-- Its output array holds what its write-backs leave. -/
theorem projected (c : Dev nD) : V1 m ρ c main_v0 = (dat0 (V0 m ρ) c).arrAt 2 cfg0.N :=
  W1_arr m ρ c 2

end Cert.KernelIdeal.Aggregate

end
-- ==== Proof.KernelValue.lean ====
/- The kernel program's result, as one function of its four arguments. The run leaves the result array at what the
   activation region's write-backs leave; that is the maximum with zero of the aggregate the region was entered with;
   the aggregate is the edge aggregation of the first region's exit contents; and the first region leaves its output
   at the dense projection of x and w and the edge list and weights untouched. -/
import proofs.«141219_j6846177870229_1_alg».proof.Proof.KernelRun
import proofs.«141219_j6846177870229_1_alg».proof.Proof.Region0
import proofs.«141219_j6846177870229_1_alg».proof.Proof.Region1
import proofs.«141219_j6846177870229_1_alg».proof.Proof.Aggregate
import proofs.«141219_j6846177870229_1_alg».proof.Proof.Spec

set_option maxRecDepth 16384

noncomputable section

namespace Cert.KernelIdeal.KernelValue

open Cert.KernelIdeal Cert.KernelIdeal.Gen Cert.KernelIdeal.Aggregate
open Idealize.ShloMosaic Idealize.ShloMosaic.TcCoe Idealize.SL.Sem

variable (m : (ℓ : Loc nD τ sig) → Buf (Elt Ideal) ℓ) (ρ : Dev nD → PrngReg)

/-- The first region's output array at its exit: the projection of the launch contents of x and w. -/
theorem projected_eq (c : Dev nD) :
    V1 m ρ c main_v0 = Cert.Spec.proj (m ((c.tc : Thread nD τ).loc main_arg0)) (m ((c.tc : Thread nD τ).loc main_arg1)) :=
  (projected m ρ c).trans (Region0.array_after (V0 m ρ) c)

/-- What the second region's write-backs leave in the result array. -/
theorem result_eq (c : Dev nD) :
    (dat1 (V2 m ρ) c).arrAt 1 cfg1.N
      = Cert.Spec.relu (aggregate (F := Ideal) (Cert.Spec.proj (m ((c.tc : Thread nD τ).loc main_arg0)) (m ((c.tc : Thread nD τ).loc main_arg1)))
          (m ((c.tc : Thread nD τ).loc main_arg2)) (m ((c.tc : Thread nD τ).loc main_arg3))) := by
  rw [Region1.array_after (V2 m ρ) c, entered_with m ρ c, projected_eq m ρ c, edges_kept m ρ c, weights_kept m ρ c]

/-- The run, read: the result array at the maximum with zero of the aggregation of the projection of the arguments,
    the arguments unchanged. -/
theorem run : θ_run defs (onTc (τ := τ) (main (F := Ideal))) ⟨m, fun _ => 0, ρ⟩ (fun r => ∀ c : Dev nD,
      r.2.mem ((c.tc : Thread nD τ).loc main_v18)
        = Cert.Spec.relu (aggregate (F := Ideal) (Cert.Spec.proj (m ((c.tc : Thread nD τ).loc main_arg0)) (m ((c.tc : Thread nD τ).loc main_arg1)))
            (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (Cert.KernelIdeal.Run.run_main m ρ)

end Cert.KernelIdeal.KernelValue

end
-- ==== Proof.RefValue.lean ====
/- The reference's result, read. Its `dot_general` of the two argument arrays is the dense projection (entry by
   entry the same sum over the contraction index); the operations after it are the edge aggregation, the same ones the
   kernel's program runs between its two regions; and its closing maximum against a zero splat is the entrywise
   maximum with zero. So the reference's result term is the maximum with zero of the aggregation of the projection.
   The structural steps (which operations the term is made of) hold at any float instance and are stated so; only the
   two value facts (the product as a sum, the maximum entrywise) are about extended reals. -/
import proofs.«141219_j6846177870229_1_alg».proof.Proof.Gen.ReferenceIdeal.Run
import proofs.«141219_j6846177870229_1_alg».proof.Proof.Gen.ReferenceIdeal.Read
import proofs.«141219_j6846177870229_1_alg».proof.Proof.Aggregate
import proofs.«141219_j6846177870229_1_alg».proof.Proof.Spec

set_option maxRecDepth 16384

noncomputable section

namespace Cert.ReferenceIdeal.RefValue

open Cert.ReferenceIdeal Cert.ReferenceIdeal.Gen
open Idealize.ShloMosaic Idealize.ShloMosaic.TcCoe Idealize.SL.Sem

section Structure

variable {F : FTy → Type} [FloatOps F]

/-- The reference's operations between its `dot_general` and its closing maximum, as one function of the projected
    features, the edge list and the edge weights. -/
def aggregate (h : (⟨S100000x64, .f32⟩ : BufTy).Contents (Elt F)) (e : (⟨S2x1600000, .i32⟩ : BufTy).Contents (Elt F))
    (w : (⟨S1600000, .f32⟩ : BufTy).Contents (Elt F)) : (⟨S100000x64, .f32⟩ : BufTy).Contents (Elt F) :=
  Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (shapeCast _ (extractStridedSlice S1x1600000 ![1, 0] e slices_S2x1600000_S1x1600000_1_0) shapeCasts_S1x1600000_S1600000)) (mulf (Host.gather gather_S100000x64_S1600000x1_S1600000x64_1_0_n_n_0_1_164 h (broadcastInDim S1600000x1 ![0] bcast_S1600000_S1600000x1_0 (select (cmpi .slt (shapeCast _ (extractStridedSlice S1x1600000 ![0, 0] e slices_S2x1600000_S1x1600000_0_0) shapeCasts_S1x1600000_S1600000) (broadcastInDim S1600000 ![] bcast_S_S1600000 (constantI S_ 32 0#32))) (addi (shapeCast _ (extractStridedSlice S1x1600000 ![0, 0] e slices_S2x1600000_S1x1600000_0_0) shapeCasts_S1x1600000_S1600000) (broadcastInDim S1600000 ![] bcast_S_S1600000 (constantI S_ 32 100000#32))) (shapeCast _ (extractStridedSlice S1x1600000 ![0, 0] e slices_S2x1600000_S1x1600000_0_0) shapeCasts_S1x1600000_S1600000)))) (broadcastInDim S1600000x64 ![0, 1] bcast_S1600000x1_S1600000x64_0_1 (broadcastInDim S1600000x1 ![0] bcast_S1600000_S1600000x1_0 w)))

/-- They are the kernel program's: the same operations over the same shapes and dimension records. -/
theorem aggregate_is_kernels (h : (⟨S100000x64, .f32⟩ : BufTy).Contents (Elt F)) (e : (⟨S2x1600000, .i32⟩ : BufTy).Contents (Elt F))
    (w : (⟨S1600000, .f32⟩ : BufTy).Contents (Elt F)) :
    aggregate h e w = Cert.KernelIdeal.Aggregate.aggregate (F := F) h e w := rfl

/-- The reference's closing operation: the maximum against a zero splat. -/
def closing (a : (⟨S100000x64, .f32⟩ : BufTy).Contents (Elt F)) : (⟨S100000x64, .f32⟩ : BufTy).Contents (Elt F) :=
  maximumf a (broadcastInDim S100000x64 ![] bcast_S_S100000x64 (constant S_ .f32 0x00000000#32))

/-- The reference's result term is the closing maximum of the aggregation of its `dot_general`. -/
theorem result_term (a0 : (⟨S100000x256, .f32⟩ : BufTy).Contents (Elt F)) (a1 : (⟨S256x64, .f32⟩ : BufTy).Contents (Elt F))
    (a2 : (⟨S2x1600000, .i32⟩ : BufTy).Contents (Elt F)) (a3 : (⟨S1600000, .f32⟩ : BufTy).Contents (Elt F)) :
    (maximumf (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (shapeCast _ (extractStridedSlice S1x1600000 ![1, 0] a2 slices_S2x1600000_S1x1600000_1_0) shapeCasts_S1x1600000_S1600000)) (mulf (Host.gather gather_S100000x64_S1600000x1_S1600000x64_1_0_n_n_0_1_164 (Host.dotGeneral dot_S100000x256_S256x64_S100000x64_1_0_0_1_n_n none a0 a1) (broadcastInDim S1600000x1 ![0] bcast_S1600000_S1600000x1_0 (select (cmpi .slt (shapeCast _ (extractStridedSlice S1x1600000 ![0, 0] a2 slices_S2x1600000_S1x1600000_0_0) shapeCasts_S1x1600000_S1600000) (broadcastInDim S1600000 ![] bcast_S_S1600000 (constantI S_ 32 0#32))) (addi (shapeCast _ (extractStridedSlice S1x1600000 ![0, 0] a2 slices_S2x1600000_S1x1600000_0_0) shapeCasts_S1x1600000_S1600000) (broadcastInDim S1600000 ![] bcast_S_S1600000 (constantI S_ 32 100000#32))) (shapeCast _ (extractStridedSlice S1x1600000 ![0, 0] a2 slices_S2x1600000_S1x1600000_0_0) shapeCasts_S1x1600000_S1600000)))) (broadcastInDim S1600000x64 ![0, 1] bcast_S1600000x1_S1600000x64_0_1 (broadcastInDim S1600000x1 ![0] bcast_S1600000_S1600000x1_0 a3)))) (broadcastInDim S100000x64 ![] bcast_S_S100000x64 (constant S_ .f32 0x00000000#32)) : (⟨S100000x64, .f32⟩ : BufTy).Contents (Elt F))
      = closing (aggregate (Cert.ReferenceIdeal.Read.val_main_v0 (F := F) a0 a1) a2 a3) := rfl

end Structure

/-- The host's `dot_general` on extended reals is the dense projection. -/
theorem dot_is_proj (a0 : (⟨S100000x256, .f32⟩ : BufTy).Contents (Elt Ideal)) (a1 : (⟨S256x64, .f32⟩ : BufTy).Contents (Elt Ideal)) :
    Cert.ReferenceIdeal.Read.val_main_v0 (F := Ideal) a0 a1 = Cert.Spec.proj a0 a1 :=
  funext fun i => Cert.ReferenceIdeal.Read.val_main_v0_apply a0 a1 i

/-- The closing maximum on extended reals is the entrywise maximum with the float zero. -/
theorem closing_is_relu (a : (⟨S100000x64, .f32⟩ : BufTy).Contents (Elt Ideal)) : closing (F := Ideal) a = Cert.Spec.relu a := rfl

/-- The reference's result is the maximum with zero of the aggregation of the projection. -/
theorem result_eq (a0 : (⟨S100000x256, .f32⟩ : BufTy).Contents (Elt Ideal)) (a1 : (⟨S256x64, .f32⟩ : BufTy).Contents (Elt Ideal))
    (a2 : (⟨S2x1600000, .i32⟩ : BufTy).Contents (Elt Ideal)) (a3 : (⟨S1600000, .f32⟩ : BufTy).Contents (Elt Ideal)) :
    closing (F := Ideal) (aggregate (Cert.ReferenceIdeal.Read.val_main_v0 (F := Ideal) a0 a1) a2 a3)
      = Cert.Spec.relu (Cert.KernelIdeal.Aggregate.aggregate (F := Ideal) (Cert.Spec.proj a0 a1) a2 a3) := by
  rw [dot_is_proj, aggregate_is_kernels, closing_is_relu]

end Cert.ReferenceIdeal.RefValue

end
-- ==== Proof.lean ====
/- A one-layer graph convolution, relu(A · (x · w)), in two Pallas kernels with the sparse aggregation between them on
   the host, against the plain jnp program.

   The kernel's program: a tiled matrix product h = x · w (fifty row blocks of 2000, each block's product taken of
   bf16 casts into a zero f32 accumulator); then on the host the edge aggregation (gather the source rows of h, scale
   each by its edge weight, add into the destination rows of a zero array); then a tiled entrywise maximum with zero
   (twenty row blocks of 5000). The reference: `dot_general` of x and w, the same host aggregation, `maximum` with a
   zero splat.

   On extended reals a change of float format is the identity and both products are, entry by entry, the same sum over
   the 256 contraction indices of x[r, k] · w[k, j]; the aggregation is the same operations applied to equal arrays and
   is never opened; both activations are the entrywise maximum with the same zero word. No step uses a law that needs
   finiteness, so the precondition is never opened. The ideal pass rewrote nothing, so the idealization claim is
   trivial. The frames of the two kernel programs are the generated ones; the reference's frame is its run with the
   result dropped. -/
import proofs.«141219_j6846177870229_1_alg».proof.Defs
import proofs.«141219_j6846177870229_1_alg».proof.Proof.Gen.Kernel
import proofs.«141219_j6846177870229_1_alg».proof.Proof.Gen.Kernel.Skeleton
import proofs.«141219_j6846177870229_1_alg».proof.Proof.Gen.Kernel.Launch
import proofs.«141219_j6846177870229_1_alg».proof.Proof.Gen.Kernel.Points
import proofs.«141219_j6846177870229_1_alg».proof.Proof.Gen.Kernel.Frame
import proofs.«141219_j6846177870229_1_alg».proof.Proof.Gen.KernelIdeal
import proofs.«141219_j6846177870229_1_alg».proof.Proof.Gen.KernelIdeal.Skeleton
import proofs.«141219_j6846177870229_1_alg».proof.Proof.Gen.KernelIdeal.Launch
import proofs.«141219_j6846177870229_1_alg».proof.Proof.Gen.KernelIdeal.Points
import proofs.«141219_j6846177870229_1_alg».proof.Proof.Gen.KernelIdeal.Frame
import proofs.«141219_j6846177870229_1_alg».proof.Proof.Gen.ReferenceIdeal
import proofs.«141219_j6846177870229_1_alg».proof.Proof.Gen.Pre_finite_inputs
import proofs.«141219_j6846177870229_1_alg».proof.Proof.Gen.ReferenceIdeal.Run
import proofs.«141219_j6846177870229_1_alg».proof.Proof.Gen.ReferenceIdeal.Read
import proofs.«141219_j6846177870229_1_alg».proof.Proof.KernelValue
import proofs.«141219_j6846177870229_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does its reading on extended reals. -/
theorem frame_kernel_ideal : Cert.frame_KernelIdeal := fun m ρ _ => Cert.KernelIdeal.Gen.frame m ρ

/-- The reference runs and leaves its arguments as launched: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the result array at the maximum with zero of
    the edge aggregation of the dense projection x · w: the kernel's by its run read region by region, the reference's
    by its run read operation by operation. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.RefValue.result_term (F := Ideal) _ _ _ _).trans (Cert.ReferenceIdeal.RefValue.result_eq _ _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
